-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S128x7 : Shape := ⟨2, ![128, 7]⟩
abbrev S7 : Shape := ⟨1, ![7]⟩
abbrev S14x1 : Shape := ⟨2, ![14, 1]⟩
abbrev S1 : Shape := ⟨1, ![1]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S128x7 : S_.BroadcastsInDim S128x7 (![] : Fin 0 → Fin S128x7.rank)
  reducesTo_S128x7_S_d0_1 : S128x7.ReducesTo [0, 1] S_
  bcast_S_S7 : S_.BroadcastsInDim S7 (![] : Fin 0 → Fin S7.rank)
  reducesTo_S7_S_d0 : S7.ReducesTo [0] S_
  bcast_S_S14x1 : S_.BroadcastsInDim S14x1 (![] : Fin 0 → Fin S14x1.rank)
  reducesTo_S14x1_S_d0_1 : S14x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S14x1 1) : IVec S_ 1 :=
  let main_c_5 : IVec S_ 1 := constantI S_ 1 1#1
  let main_v17 : IVec S_ 1 := (fun x v => Host.reduce IntOp.andi x v reducesTo_S14x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S262144x128 .f32) (main_arg1 : FVec F S128x7 .f32) (main_arg2 : FVec F S7 .f32) (main_arg3 : FVec F S14x1 .f32) (main_arg4 : FVec F S1 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S128x7 .f32 := Host.absf main_arg1
  let main_cst_0 : FVec F S_ .f32 := constant S_ .f32 0x7F800000#32
  let main_v5 : FVec F S128x7 .f32 := broadcastInDim S128x7 ![] bcast_S_S128x7 main_cst_0
  let main_v6 : IVec S128x7 1 := cmpf .olt main_v4 main_v5
  let main_c_1 : IVec S_ 1 := constantI S_ 1 1#1
  let main_v7 : IVec S_ 1 := (fun x v => Host.reduce IntOp.andi x v reducesTo_S128x7_S_d0_1 h_S_) main_v6 main_c_1
  let main_v8 : IVec S_ 1 := andi main_v3 main_v7
  let main_v9 : FVec F S7 .f32 := Host.absf main_arg2
  let main_cst_2 : FVec F S_ .f32 := constant S_ .f32 0x7F800000#32
  let main_v10 : FVec F S7 .f32 := broadcastInDim S7 ![] bcast_S_S7 main_cst_2
  let main_v11 : IVec S7 1 := cmpf .olt main_v9 main_v10
  let main_c_3 : IVec S_ 1 := constantI S_ 1 1#1
  let main_v12 : IVec S_ 1 := (fun x v => Host.reduce IntOp.andi x v reducesTo_S7_S_d0 h_S_) main_v11 main_c_3
  let main_v13 : IVec S_ 1 := andi main_v8 main_v12
  let main_v14 : FVec F S14x1 .f32 := Host.absf main_arg3
  let main_cst_4 : FVec F S_ .f32 := constant S_ .f32 0x7F800000#32
  let main_v15 : FVec F S14x1 .f32 := broadcastInDim S14x1 ![] bcast_S_S14x1 main_cst_4
  let main_v16 : IVec S14x1 1 := cmpf .olt main_v14 main_v15
  fn_part1 (F := F) main_arg4 main_v13 main_v16
-- ==== Kernel.lean ====
abbrev S262144x128 : Shape := ⟨2, ![262144, 128]⟩
abbrev S128x7 : Shape := ⟨2, ![128, 7]⟩
abbrev S7 : Shape := ⟨1, ![7]⟩
abbrev S14x1 : Shape := ⟨2, ![14, 1]⟩
abbrev S1 : Shape := ⟨1, ![1]⟩
abbrev S1x7 : Shape := ⟨2, ![1, 7]⟩
abbrev S1x1 : Shape := ⟨2, ![1, 1]⟩
abbrev S262144x256 : Shape := ⟨2, ![262144, 256]⟩
abbrev S8192x128 : Shape := ⟨2, ![8192, 128]⟩
abbrev S8192x256 : Shape := ⟨2, ![8192, 256]⟩
abbrev S8192x7 : Shape := ⟨2, ![8192, 7]⟩
abbrev S8192x14 : Shape := ⟨2, ![8192, 14]⟩
abbrev S8192x1 : Shape := ⟨2, ![8192, 1]⟩

abbrev nBuf : Space → Nat
  | .hbm => 8
  | .vmem => 8
  | .smem => 0
  | _ => 0

abbrev bufTy : (tb : Table) → Fin (tcTables nBuf tb) → BufTy
  | .hbm, ⟨0, _⟩ => ⟨S262144x128, .f32⟩
  | .hbm, ⟨1, _⟩ => ⟨S128x7, .f32⟩
  | .hbm, ⟨2, _⟩ => ⟨S7, .f32⟩
  | .hbm, ⟨3, _⟩ => ⟨S14x1, .f32⟩
  | .hbm, ⟨4, _⟩ => ⟨S1, .f32⟩
  | .hbm, ⟨5, _⟩ => ⟨S1x7, .f32⟩
  | .hbm, ⟨6, _⟩ => ⟨S1x1, .f32⟩
  | .hbm, ⟨7, _⟩ => ⟨S262144x256, .f32⟩
  | .local _ .vmem, ⟨0, _⟩ => ⟨S8192x128, .f32⟩
  | .local _ .vmem, ⟨1, _⟩ => ⟨S8192x128, .f32⟩
  | .local _ .vmem, ⟨2, _⟩ => ⟨S128x7, .f32⟩
  | .local _ .vmem, ⟨3, _⟩ => ⟨S1x7, .f32⟩
  | .local _ .vmem, ⟨4, _⟩ => ⟨S14x1, .f32⟩
  | .local _ .vmem, ⟨5, _⟩ => ⟨S1x1, .f32⟩
  | .local _ .vmem, ⟨6, _⟩ => ⟨S8192x256, .f32⟩
  | .local _ .vmem, ⟨7, _⟩ => ⟨S8192x256, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x7 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x7 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S14x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S7_S1x7 : S7.ShapeCasts S1x7
  shapeCasts_S1_S1x1 : S1.ShapeCasts S1x1
  inb_S8192x128_S8192x128_0_0 : ∀ a, (![0, 0] : Fin 2 → Nat) a + S8192x128.size a ≤ S8192x128.size a
  h_S8192x128 : 0 < S8192x128.numel
  inb_S128x7_S128x7_0_0 : ∀ a, (![0, 0] : Fin 2 → Nat) a + S128x7.size a ≤ S128x7.size a
  h_S128x7 : 0 < S128x7.numel
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S8192x7 : S1x7.Broadcasts S8192x7
  concatenates_S8192x7_S8192x7_S8192x14_d1 : Shape.Concatenates [S8192x7, S8192x7] S8192x14 1
  inb_S14x1_S14x1_0_0 : ∀ a, (![0, 0] : Fin 2 → Nat) a + S14x1.size a ≤ S14x1.size a
  h_S14x1 : 0 < S14x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8192x1 : S1x1.Broadcasts S8192x1
  shapeCasts_S8192x1_S8192x1 : S8192x1.ShapeCasts S8192x1
  broadcasts_S8192x1_S8192x256 : S8192x1.Broadcasts S8192x256
  inb_S8192x256_S8192x256_0_0 : ∀ a, (![0, 0] : Fin 2 → Nat) a + S8192x256.size a ≤ S8192x256.size a
  h_S8192x256 : 0 < S8192x256.numel
  dot_S8192x128_S128x7_S8192x7_1_0_0_1_n_n_wf : DotDims.WF S8192x128 S128x7 S8192x7 [1] [0] [0] [1] [] []
  dot_S8192x14_S14x1_S8192x1_1_0_0_1_n_n_wf : DotDims.WF S8192x14 S14x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x7.size a ≤ S128x7.size a
  hwx0_1 : ∀ i : grid0.Coords, EltTy.bits .f32 = 32 ∨ (Rect.block (s := S128x7) S128x7.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x7.size a ≤ S1x7.size a
  hwx0_2 : ∀ i : grid0.Coords, EltTy.bits .f32 = 32 ∨ (Rect.block (s := S1x7) S1x7.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S14x1.size a ≤ S14x1.size a
  hwx0_3 : ∀ i : grid0.Coords, EltTy.bits .f32 = 32 ∨ (Rect.block (s := S14x1) S14x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x256.size a ≤ S262144x256.size a
  hwx0_5 : ∀ i : grid0.Coords, EltTy.bits .f32 = 32 ∨ (Rect.block (s := S262144x256) S8192x256.size (cc0_transform_5 i) (hinb0_5 i)).WholeWords (EltTy.packing .f32)

variable [Facts₀]

def dot_S8192x128_S128x7_S8192x7_1_0_0_1_n_n : DotDims S8192x128 S128x7 S8192x7 where
  lhsContracting := [1]
  rhsContracting := [0]
  lhsNonContracting := [0]
  rhsNonContracting := [1]
  lhsBatch := []
  rhsBatch := []
  wf := dot_S8192x128_S128x7_S8192x7_1_0_0_1_n_n_wf
def dot_S8192x14_S14x1_S8192x1_1_0_0_1_n_n : DotDims S8192x14 S14x1 S8192x1 where
  lhsContracting := [1]
  rhsContracting := [0]
  lhsNonContracting := [0]
  rhsNonContracting := [1]
  lhsBatch := []
  rhsBatch := []
  wf := dot_S8192x14_S14x1_S8192x1_1_0_0_1_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x7.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x7.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S14x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S8192x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S262144x128 : Shape := ⟨2, ![262144, 128]⟩
abbrev S128x7 : Shape := ⟨2, ![128, 7]⟩
abbrev S7 : Shape := ⟨1, ![7]⟩
abbrev S14x1 : Shape := ⟨2, ![14, 1]⟩
abbrev S1 : Shape := ⟨1, ![1]⟩
abbrev S262144x7 : Shape := ⟨2, ![262144, 7]⟩
abbrev S1x7 : Shape := ⟨2, ![1, 7]⟩
abbrev S262144x14 : Shape := ⟨2, ![262144, 14]⟩
abbrev S262144x1 : Shape := ⟨2, ![262144, 1]⟩
abbrev S1x1 : Shape := ⟨2, ![1, 1]⟩
abbrev S262144x256 : Shape := ⟨2, ![262144, 256]⟩

abbrev nBuf : Space → Nat
  | .hbm => 17
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S128x7, .f32⟩
  | .hbm, ⟨2, _⟩ => ⟨S7, .f32⟩
  | .hbm, ⟨3, _⟩ => ⟨S14x1, .f32⟩
  | .hbm, ⟨4, _⟩ => ⟨S1, .f32⟩
  | .hbm, ⟨5, _⟩ => ⟨S262144x7, .f32⟩
  | .hbm, ⟨6, _⟩ => ⟨S1x7, .f32⟩
  | .hbm, ⟨7, _⟩ => ⟨S262144x7, .f32⟩
  | .hbm, ⟨8, _⟩ => ⟨S262144x7, .f32⟩
  | .hbm, ⟨9, _⟩ => ⟨S262144x7, .f32⟩
  | .hbm, ⟨10, _⟩ => ⟨S262144x7, .f32⟩
  | .hbm, ⟨11, _⟩ => ⟨S262144x14, .f32⟩
  | .hbm, ⟨12, _⟩ => ⟨S262144x1, .f32⟩
  | .hbm, ⟨13, _⟩ => ⟨S1x1, .f32⟩
  | .hbm, ⟨14, _⟩ => ⟨S262144x1, .f32⟩
  | .hbm, ⟨15, _⟩ => ⟨S262144x1, .f32⟩
  | .hbm, ⟨16, _⟩ => ⟨S262144x256, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S7_S1x7_1 : S7.BroadcastsInDim S1x7 (![1] : Fin 1 → Fin S1x7.rank)
  bcast_S1x7_S262144x7_0_1 : S1x7.BroadcastsInDim S262144x7 (![0, 1] : Fin 2 → Fin S262144x7.rank)
  concatenates_S262144x7_S262144x7_S262144x14_d1 : Shape.Concatenates [S262144x7, S262144x7] S262144x14 1
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  bcast_S262144x1_S262144x256_0_1 : S262144x1.BroadcastsInDim S262144x256 (![0, 1] : Fin 2 → Fin S262144x256.rank)
  dot_S262144x128_S128x7_S262144x7_1_0_0_1_n_n_wf : DotDims.WF S262144x128 S128x7 S262144x7 [1] [0] [0] [1] [] []
  dot_S262144x14_S14x1_S262144x1_1_0_0_1_n_n_wf : DotDims.WF S262144x14 S14x1 S262144x1 [1] [0] [0] [1] [] []

variable [Facts₀]

def dot_S262144x128_S128x7_S262144x7_1_0_0_1_n_n : DotDims S262144x128 S128x7 S262144x7 where
  lhsContracting := [1]
  rhsContracting := [0]
  lhsNonContracting := [0]
  rhsNonContracting := [1]
  lhsBatch := []
  rhsBatch := []
  wf := dot_S262144x128_S128x7_S262144x7_1_0_0_1_n_n_wf
def dot_S262144x14_S14x1_S262144x1_1_0_0_1_n_n : DotDims S262144x14 S14x1 S262144x1 where
  lhsContracting := [1]
  rhsContracting := [0]
  lhsNonContracting := [0]
  rhsNonContracting := [1]
  lhsBatch := []
  rhsBatch := []
  wf := dot_S262144x14_S14x1_S262144x1_1_0_0_1_n_n_wf

class Facts : Prop extends Facts₀ where

variable [Facts]
-- ==== Proof.RowMap.lean ====
/-
  The map computed on every row, and the layout steps both programs take around it.

  One row of the input is a vector of 128 numbers. From it the network forms 7 hidden units, each the row's inner
  product with a column of the first weight matrix plus that column's bias; then 14 features, the sines of the hidden
  units followed by their cosines; then one number, the features' inner product with the second weight column plus
  the second bias. That number is written to all 256 columns of the row's output. Nothing here uses that the numbers
  are finite: every step is the same expression on the extended reals for both programs, so no law of the reals is
  needed beyond reading each operation at an index.
-/
import Idealize.ShloMosaic.PureOps.Ideal.Laws
import Idealize.ShloMosaic.Lib.ValueIdx
import Idealize.ShloMosaic.Lib.ValueLayout
import Idealize.ShloMosaic.Lib.Pipeline.Value

noncomputable section

namespace Cert.FourierRow

open Idealize.ShloMosaic Idealize.ShloMosaic.ValueIdx

/-! ## The row map -/

/-- Hidden unit `j` of a row: the row against column `j` of the first weights, plus that column's bias. -/
def hid (xr : Fin 128 → EReal) (W : Fin 128 → Fin 7 → EReal) (b : Fin 7 → EReal) (j : Fin 7) : EReal :=
  (∑ k : Fin 128, xr k * W k j) + b j

/-- Feature `k` of a row: for `k < 7` the sine of hidden unit `k`, from `7` on the cosine of hidden unit `k - 7`. -/
def feat (h : Fin 7 → EReal) (k : Fin 14) : EReal :=
  if hk : k.val < 7 then Ideal.sin (h ⟨k.val, hk⟩) else Ideal.cos (h ⟨k.val - 7, by omega⟩)

/-- The row's one output number: the 14 features against the second weights, plus the second bias. -/
def rowOut (xr : Fin 128 → EReal) (W : Fin 128 → Fin 7 → EReal) (b : Fin 7 → EReal) (w : Fin 14 → EReal) (c : EReal) : EReal :=
  (∑ k : Fin 14, feat (hid xr W b) k * w k) + c

theorem rowOut_congr {xr xr' : Fin 128 → EReal} {W W' : Fin 128 → Fin 7 → EReal} {b b' : Fin 7 → EReal}
    {w w' : Fin 14 → EReal} {c c' : EReal} (h1 : ∀ k, xr k = xr' k) (h2 : ∀ k j, W k j = W' k j) (h3 : ∀ j, b j = b' j)
    (h4 : ∀ k, w k = w' k) (h5 : c = c') : rowOut xr W b w c = rowOut xr' W' b' w' c' := by
  have e1 : xr = xr' := funext h1
  have e2 : W = W' := funext fun k => funext (h2 k)
  have e3 : b = b' := funext h3
  have e4 : w = w' := funext h4
  rw [e1, e2, e3, e4, h5]

/-- The whole result: entry `(r, q)` is row `r`'s output number, whatever the column `q`. The two biases are
    given as the program at hand holds them (a function of the unit, and a number). -/
def target (x : (⟨2, ![262144, 128]⟩ : Shape).Idx → EReal) (Ws : (⟨2, ![128, 7]⟩ : Shape).Idx → EReal) (b : Fin 7 → EReal)
    (Wm : (⟨2, ![14, 1]⟩ : Shape).Idx → EReal) (c : EReal) : (⟨2, ![262144, 256]⟩ : Shape).Idx → EReal :=
  fun i => rowOut (fun k => x (ix2 (⟨(i 0).val, idx2_lt0 i⟩ : Fin 262144) k)) (fun k j => Ws (ix2 k j)) b
    (fun k => Wm (ix2 k (0 : Fin 1))) c

/-! ## Layout steps read at an index -/

section Layout
variable {α : Type}

/-- A column `[a, 1]` copied to every column of `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- Two `[M, 7]` arrays laid side by side read, at `(p, k)`, the first at `(p, k)` for `k < 7` and the second
    at `(p, k - 7)` from `7` on. -/
theorem concat_7_7_apply {M : ℕ} (x₁ x₂ : (⟨2, ![M, 7]⟩ : Shape).Idx → α)
    (h : Shape.Concatenates [(⟨2, ![M, 7]⟩ : Shape), ⟨2, ![M, 7]⟩] ⟨2, ![M, 14]⟩ 1) (p : Fin M) (k : Fin 14) :
    concatenate ⟨2, ![M, 14]⟩ 1 [⟨⟨2, ![M, 7]⟩, x₁⟩, ⟨⟨2, ![M, 7]⟩, x₂⟩] h (ix2 p k)
      = if hk : k.val < 7 then x₁ (ix2 p ⟨k.val, hk⟩) else x₂ (ix2 p ⟨k.val - 7, by omega⟩) := by
  split
  · next hk =>
    exact concatenate_pair_apply_left 1 x₁ x₂ h (ix2 p k) rfl (ix2 p ⟨k.val, hk⟩)
      (fun ax => match ax with | ⟨0, _⟩ => rfl | ⟨1, _⟩ => rfl)
  · next hk =>
    exact concatenate_pair_apply_right 1 x₁ x₂ h (ix2 p k) rfl rfl (ix2 p ⟨k.val - 7, by omega⟩)
      (fun ax hne => match ax with | ⟨0, _⟩ => rfl | ⟨1, _⟩ => absurd rfl hne)
      (by show (k.val - 7) + 7 = k.val; omega)

end Layout

end Cert.FourierRow

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.KernelRow.lean ====
/-
  The kernel body's stored value, read at an entry of the block.

  At a grid point the body holds a block of 8192 rows of the input and the four small arrays whole. Its one store
  writes, at entry `(p, q)` of the 8192 × 256 output block, the row map of row `p` of the loaded block: the two
  products are into zero accumulators, so each is the plain sum over the contracted index; the first bias is one row
  copied down the block, the second one number copied down a column; the features are the sines and cosines laid
  side by side; and the last step copies the column of results to all 256 columns.
-/
import proofs.«122448_j65455301591497_1_alg».proof.Proof.Gen.KernelIdeal.Skeleton
import proofs.«122448_j65455301591497_1_alg».proof.Proof.RowMap
import proofs.«122448_j65455301591497_1_alg».proof.Proof.LibDot

noncomputable section

namespace Cert.KernelIdeal.RowValue

open Cert.KernelIdeal Cert.KernelIdeal.Gen Idealize.ShloMosaic Idealize.ShloMosaic.ValueIdx Cert.FourierRow Cert.GNN

/-- The hidden units of every row of the block: the block against the first weights into zero, plus the bias row
    copied down. -/
def hidBlk (v0 : FVec Ideal S8192x128 .f32) (v1 : FVec Ideal S128x7 .f32) (v3 : FVec Ideal S1x7 .f32) : FVec Ideal S8192x7 .f32 :=
  addf (matmul (φ₁ := .f32) (φ₂ := .f32) dot_S8192x128_S128x7_S8192x7_1_0_0_1_n_n none v0 v1 (constant S8192x7 .f32 0x00000000#32))
    (broadcastTo S8192x7 (shapeCast S1x7 v3 shapeCasts_S1x7_S1x7) broadcasts_S1x7_S8192x7)

/-- The features of every row: sines, then cosines, side by side. -/
def featBlk (h : FVec Ideal S8192x7 .f32) : FVec Ideal S8192x14 .f32 :=
  concatenate S8192x14 1 [⟨S8192x7, sin h⟩, ⟨S8192x7, cos h⟩] concatenates_S8192x7_S8192x7_S8192x14_d1

/-- The stored block: the features against the second weights into zero, plus the second bias, the resulting column
    copied to every column. -/
def outBlk (f : FVec Ideal S8192x14 .f32) (v10 : FVec Ideal S14x1 .f32) (v12 : FVec Ideal S1x1 .f32) : FVec Ideal S8192x256 .f32 :=
  broadcastTo S8192x256
    (shapeCast S8192x1
      (addf (matmul (φ₁ := .f32) (φ₂ := .f32) dot_S8192x14_S14x1_S8192x1_1_0_0_1_n_n none f v10 (constant S8192x1 .f32 0x00000000#32))
        (broadcastTo S8192x1 (shapeCast S1x1 v12 shapeCasts_S1x1_S1x1) broadcasts_S1x1_S8192x1))
      shapeCasts_S8192x1_S8192x1)
    broadcasts_S8192x1_S8192x256

/-- The body's stored value is those three steps, one after the other. -/
theorem pay_eq (v0 : FVec Ideal S8192x128 .f32) (v1 : FVec Ideal S128x7 .f32) (v3 : FVec Ideal S1x7 .f32)
    (v10 : FVec Ideal S14x1 .f32) (v12 : FVec Ideal S1x1 .f32) :
    k0_pay1 (F := Ideal) v0 v1 v3 v10 v12 = outBlk (featBlk (hidBlk v0 v1 v3)) v10 v12 := rfl

/-- Hidden unit `j` of row `p` of the block. -/
theorem hidBlk_apply (v0 : FVec Ideal S8192x128 .f32) (v1 : FVec Ideal S128x7 .f32) (v3 : FVec Ideal S1x7 .f32)
    (p : Fin 8192) (j : Fin 7) :
    hidBlk v0 v1 v3 (ix2 p j)
      = hid (fun k => v0 (ix2 p k)) (fun k j => v1 (ix2 k j)) (fun j => v3 (ix2 (0 : Fin 1) j)) j := by
  unfold hidBlk hid
  rw [addf_apply, shapeCast_self]
  congr 1
  · exact matmul_plain_zero_apply (M := 8192) (K := 128) (N := 7) none v0 v1 p j
  · exact broadcastTo_1b_ab_apply v3 broadcasts_S1x7_S8192x7 p j

/-- Feature `k` of row `p` of the block. -/
theorem featBlk_apply (h : FVec Ideal S8192x7 .f32) (p : Fin 8192) (k : Fin 14) :
    featBlk h (ix2 p k) = feat (fun j => h (ix2 p j)) k := by
  unfold featBlk feat
  rw [concat_7_7_apply (M := 8192)]
  split <;> rfl

/-- Entry `(p, q)` of the stored block, from the features. -/
theorem outBlk_apply (f : FVec Ideal S8192x14 .f32) (v10 : FVec Ideal S14x1 .f32) (v12 : FVec Ideal S1x1 .f32)
    (p : Fin 8192) (q : Fin 256) :
    outBlk f v10 v12 (ix2 p q)
      = (∑ k : Fin 14, f (ix2 p k) * v10 (ix2 k (0 : Fin 1))) + v12 (ix2 (0 : Fin 1) (0 : Fin 1)) := by
  unfold outBlk
  rw [broadcastTo_a1_ab_apply (a := 8192) (b := 256), shapeCast_self, addf_apply, shapeCast_self]
  congr 1
  · exact matmul_plain_zero_apply (M := 8192) (K := 14) (N := 1) none f v10 p 0
  · exact broadcastTo_1b_ab_apply v12 broadcasts_S1x1_S8192x1 p 0

/-- THE STORED VALUE AT AN ENTRY: the row map of row `p` of the loaded block. -/
theorem pay_apply (v0 : FVec Ideal S8192x128 .f32) (v1 : FVec Ideal S128x7 .f32) (v3 : FVec Ideal S1x7 .f32)
    (v10 : FVec Ideal S14x1 .f32) (v12 : FVec Ideal S1x1 .f32) (p : Fin 8192) (q : Fin 256) :
    k0_pay1 (F := Ideal) v0 v1 v3 v10 v12 (ix2 p q)
      = rowOut (fun k => v0 (ix2 p k)) (fun k j => v1 (ix2 k j)) (fun j => v3 (ix2 (0 : Fin 1) j))
          (fun k => v10 (ix2 k (0 : Fin 1))) (v12 (ix2 (0 : Fin 1) (0 : Fin 1))) := by
  rw [pay_eq, outBlk_apply]
  unfold rowOut
  congr 1
  refine Finset.sum_congr rfl fun k _ => ?_
  rw [featBlk_apply]
  congr 2
  funext j
  exact hidBlk_apply v0 v1 v3 p j

/-- The same at any index of the block, its row read off the index. -/
theorem pay_apply_idx (v0 : FVec Ideal S8192x128 .f32) (v1 : FVec Ideal S128x7 .f32) (v3 : FVec Ideal S1x7 .f32)
    (v10 : FVec Ideal S14x1 .f32) (v12 : FVec Ideal S1x1 .f32) (j : S8192x256.Idx) :
    k0_pay1 (F := Ideal) v0 v1 v3 v10 v12 j
      = rowOut (fun k => v0 (ix2 (⟨(j 0).val, idx2_lt0 j⟩ : Fin 8192) k)) (fun k j => v1 (ix2 k j))
          (fun j => v3 (ix2 (0 : Fin 1) j)) (fun k => v10 (ix2 k (0 : Fin 1))) (v12 (ix2 (0 : Fin 1) (0 : Fin 1))) := by
  obtain ⟨p, q, rfl⟩ : ∃ (p : Fin 8192) (q : Fin 256), j = ix2 p q := ⟨j 0, j 1, eq_ix2 j⟩
  exact pay_apply v0 v1 v3 v10 v12 p q

end Cert.KernelIdeal.RowValue

end
-- ==== Proof.KernelArray.lean ====
/-
  From the blocks to the whole array.

  The grid has 32 points. Point `t` is given rows `8192 t … 8192 t + 8191` of the input and the four small arrays
  whole, and writes rows `8192 t … 8192 t + 8191` of the output, all 256 columns. So entry `(p, q)` of what point
  `t` writes is the row map of input row `8192 t + p`, which is entry `(8192 t + p, q)` of the target array; and
  every row `r` of the output lies in the block of point `r / 8192`. Hence the output array ends as the target.
  The two biases reach the body reshaped by the host, `[7]` as `[1, 7]` and `[1]` as `[1, 1]`: the same numbers
  in the same order.
-/
import proofs.«122448_j65455301591497_1_alg».proof.Proof.Gen.KernelIdeal.Value
import proofs.«122448_j65455301591497_1_alg».proof.Proof.KernelRow
import Idealize.ShloMosaic.Lib.StableHlo.Run
import Idealize.ShloMosaic.Lib.ValueLayout

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Cert.FourierRow
open Idealize.ShloMosaic.Pipeline (Dat)

variable (m : (ℓ : Loc nD τ sig) → Buf (Elt Ideal) ℓ) (ρ : Dev nD → PrngReg)

theorem origin_zero : (![0, 0] : Fin 2 → Nat) = fun _ => 0 := funext fun a => by fin_cases a <;> rfl

/-! ## The biases as the region finds them -/

/-- The first bias, reshaped by the host to one row. -/
theorem V_bias_row (c : Dev nD) :
    (V m c main_v0 : S1x7.Idx → EReal) = shapeCast S1x7 (m ((c : Thread nD τ).loc main_arg2) : S7.Idx → EReal) shapeCasts_S7_S1x7 := by
  dsimp only [Gen.V, Gen.hostOps0]; after_results; rfl

/-- The second bias, reshaped by the host to one entry. -/
theorem V_bias_out (c : Dev nD) :
    (V m c main_v1 : S1x1.Idx → EReal) = shapeCast S1x1 (m ((c : Thread nD τ).loc main_arg4) : S1.Idx → EReal) shapeCasts_S1_S1x1 := by
  dsimp only [Gen.V, Gen.hostOps0]; after_results; rfl

/-- The bias of hidden unit `j`, as the body reads it. -/
abbrev biasRow (c : Dev nD) : Fin 7 → EReal := fun j => (V m c main_v0 : S1x7.Idx → EReal) (ix2 (0 : Fin 1) j)
/-- The output bias, as the body reads it. -/
abbrev biasOut (c : Dev nD) : EReal := (V m c main_v1 : S1x1.Idx → EReal) (ix2 (0 : Fin 1) (0 : Fin 1))

theorem biasRow_eq (c : Dev nD) : biasRow m c = fun j => (m ((c : Thread nD τ).loc main_arg2) : S7.Idx → EReal) (ix1 j) := by
  funext j
  show (V m c main_v0 : S1x7.Idx → EReal) (ix2 (0 : Fin 1) j) = _
  rw [V_bias_row]
  exact shapeCast_a_1a_apply _ _ 0 j

theorem biasOut_eq (c : Dev nD) : biasOut m c = (m ((c : Thread nD τ).loc main_arg4) : S1.Idx → EReal) (ix1 (0 : Fin 1)) := by
  show (V m c main_v1 : S1x1.Idx → EReal) (ix2 (0 : Fin 1) (0 : Fin 1)) = _
  rw [V_bias_out]
  exact shapeCast_a_1a_apply _ _ 0 0

/-- The target array over the arrays as the region finds them. -/
abbrev arrTarget (c : Dev nD) : S262144x256.Idx → EReal :=
  target (V m c main_arg0) (V m c main_arg1) (biasRow m c) (V m c main_arg3) (biasOut m c)

/-! ## The index maps, decided over the 32 points -/

/-- Input rows and output rows move together, one block of 8192 rows a point; the small arrays stay put. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## What a point writes back -/

/-- WHAT POINT `t` WRITES BACK is block `t` of the target array. -/
theorem flushed_eq (c : Dev nD) (t : Fin cfg0.N) :
    (dats m 0 c).flushed 5 t = ((cfg0.win 5).blk t).view.read (Elt Ideal) (arrTarget m c) := by
  rw [Value.flushed5]
  unfold out0_5
  rw [View.canon_unit_zero origin_zero]
  simp only [View.ld_unit_zero (S := S8192x128) origin_zero, View.ld_unit_zero (S := S128x7) origin_zero,
    View.ld_unit_zero (S := S1x7) origin_zero, View.ld_unit_zero (S := S14x1) origin_zero,
    View.ld_unit_zero (S := S1x1) origin_zero]
  obtain ⟨e00, e01, e10, e11, e20, e21, e30, e31, e40, e41, e50, e51⟩ := idx_facts t
  funext j
  show k0_pay1 (F := Ideal) (iblk m c 0 t) (iblk m c 1 t) (iblk m c 2 t) (iblk m c 3 t) (iblk m c 4 t) j
    = arrTarget m c (((cfg0.win 5).blk t).view.emb j)
  refine (RowValue.pay_apply_idx (iblk m c 0 t) (iblk m c 1 t) (iblk m c 2 t) (iblk m c 3 t) (iblk m c 4 t) j).trans ?_
  show rowOut _ _ _ _ _ = rowOut _ _ _ _ _
  refine rowOut_congr (fun k => ?_) (fun k j' => ?_) (fun j' => ?_) (fun k => ?_) ?_
  · -- row `p` of the input block is row `8192 t + p` of the input
    show V m c main_arg0 (((cfg0.win 0).blk t).view.emb (ix2 (⟨(j 0).val, _⟩ : Fin 8192) k)) = V m c main_arg0 _
    refine congrArg (V m c main_arg0) (funext fun a => Fin.ext ?_)
    match a with
    | ⟨0, _⟩ =>
      show win0_0.index t (0 : Fin 2) * 8192 + 1 * (j 0).val = win0_5.index t (0 : Fin 2) * 8192 + 1 * (j 0).val
      omega
    | ⟨1, _⟩ =>
      show win0_0.index t (1 : Fin 2) * 128 + 1 * k.val = k.val
      omega
  · show V m c main_arg1 (((cfg0.win 1).blk t).view.emb (ix2 k j')) = V m c main_arg1 _
    refine congrArg (V m c main_arg1) (funext fun a => Fin.ext ?_)
    match a with
    | ⟨0, _⟩ => show win0_1.index t (0 : Fin 2) * 128 + 1 * k.val = k.val; omega
    | ⟨1, _⟩ => show win0_1.index t (1 : Fin 2) * 7 + 1 * j'.val = j'.val; omega
  · show V m c main_v0 (((cfg0.win 2).blk t).view.emb (ix2 (0 : Fin 1) j')) = V m c main_v0 _
    refine congrArg (V m c main_v0) (funext fun a => Fin.ext ?_)
    match a with
    | ⟨0, _⟩ => show win0_2.index t (0 : Fin 2) * 1 + 1 * 0 = 0; omega
    | ⟨1, _⟩ => show win0_2.index t (1 : Fin 2) * 7 + 1 * j'.val = j'.val; omega
  · show V m c main_arg3 (((cfg0.win 3).blk t).view.emb (ix2 k (0 : Fin 1))) = V m c main_arg3 _
    refine congrArg (V m c main_arg3) (funext fun a => Fin.ext ?_)
    match a with
    | ⟨0, _⟩ => show win0_3.index t (0 : Fin 2) * 14 + 1 * k.val = k.val; omega
    | ⟨1, _⟩ => show win0_3.index t (1 : Fin 2) * 1 + 1 * 0 = 0; omega
  · show V m c main_v1 (((cfg0.win 4).blk t).view.emb (ix2 (0 : Fin 1) (0 : Fin 1))) = V m c main_v1 _
    refine congrArg (V m c main_v1) (funext fun a => Fin.ext ?_)
    match a with
    | ⟨0, _⟩ => show win0_4.index t (0 : Fin 2) * 1 + 1 * 0 = 0; omega
    | ⟨1, _⟩ => show win0_4.index t (1 : Fin 2) * 1 + 1 * 0 = 0; omega

/-! ## The blocks cover the array -/

/-- An index of the array is in point `t`'s block iff each coordinate is in the block's range on its axis. -/
theorem mem_blk (t : Fin cfg0.N) (i : S262144x256.Idx) :
    i ∈ ((cfg0.win 5).blk t).view.set ↔ ∀ a : Fin 2, win0_5.index t a * S8192x256.size a ≤ (i a).val
      ∧ (i a).val < win0_5.index t a * S8192x256.size a + S8192x256.size a := by
  show i ∈ ((View.whole main_v2).slice (win0_5.rect t)).set ↔ _
  rw [View.set_slice_whole, Rect.mem_set_unit]
  exact Iff.rfl

/-- Row `r` lies in the block of point `r / 8192`. -/
theorem cover (i : S262144x256.Idx) :
    ∃ t : Fin cfg0.N, (cfg0.win 5).flush t = true ∧ i ∈ ((cfg0.win 5).blk t).view.set := by
  have hi0 : (i 0).val < 262144 := (i 0).isLt
  have hi1 : (i 1).val < 256 := (i 1).isLt
  have hlt : (i 0).val / 8192 < 32 := by omega
  obtain ⟨-, -, -, -, -, -, -, -, -, -, e50, e51⟩ := idx_facts (⟨(i 0).val / 8192, hlt⟩ : Fin cfg0.N)
  refine ⟨⟨(i 0).val / 8192, hlt⟩, flush0_5 _, ?_⟩
  rw [mem_blk]
  intro a
  match a with
  | ⟨0, _⟩ =>
    show win0_5.index ⟨(i 0).val / 8192, hlt⟩ (0 : Fin 2) * 8192 ≤ (i 0).val
      ∧ (i 0).val < win0_5.index ⟨(i 0).val / 8192, hlt⟩ (0 : Fin 2) * 8192 + 8192
    have e : win0_5.index ⟨(i 0).val / 8192, hlt⟩ (0 : Fin 2) = (i 0).val / 8192 := e50
    omega
  | ⟨1, _⟩ =>
    show win0_5.index ⟨(i 0).val / 8192, hlt⟩ (1 : Fin 2) * 256 ≤ (i 1).val
      ∧ (i 1).val < win0_5.index ⟨(i 0).val / 8192, hlt⟩ (1 : Fin 2) * 256 + 256
    omega

/-! ## The array after the run -/

theorem arrTarget_eq (c : Dev nD) :
    arrTarget m c = target (m ((c : Thread nD τ).loc main_arg0)) (m ((c : Thread nD τ).loc main_arg1))
      (fun j => (m ((c : Thread nD τ).loc main_arg2) : S7.Idx → EReal) (ix1 j)) (m ((c : Thread nD τ).loc main_arg3))
      ((m ((c : Thread nD τ).loc main_arg4) : S1.Idx → EReal) (ix1 (0 : Fin 1))) := by
  show target (V m c main_arg0) (V m c main_arg1) (biasRow m c) (V m c main_arg3) (biasOut m c) = _
  rw [V_main_arg0, V_main_arg1, V_main_arg3, biasRow_eq, biasOut_eq]

/-- THE OUTPUT ARRAY after the run is the target array of the arguments. -/
theorem final (c : Dev nD) :
    (dats m 0 c).arrAt 5 cfg0.N = target (m ((c : Thread nD τ).loc main_arg0)) (m ((c : Thread nD τ).loc main_arg1))
      (fun j => (m ((c : Thread nD τ).loc main_arg2) : S7.Idx → EReal) (ix1 j)) (m ((c : Thread nD τ).loc main_arg3))
      ((m ((c : Thread nD τ).loc main_arg4) : S1.Idx → EReal) (ix1 (0 : Fin 1))) :=
  ((dats m 0 c).arrAt_eq_of_cover 5 (arrTarget m c) (fun t _ => flushed_eq m c t) cover).trans (arrTarget_eq m c)

/-- The kernel's run: the result array at the target, the arguments unchanged. -/
theorem run : θ_run defs (onTc (τ := τ) (main (F := Ideal))) ⟨m, fun _ => 0, ρ⟩ fun r => ∀ c : Dev nD,
      r.2.mem ((c : Thread nD τ).loc main_v2) = target (m ((c : Thread nD τ).loc main_arg0)) (m ((c : Thread nD τ).loc main_arg1))
        (fun j => (m ((c : Thread nD τ).loc main_arg2) : S7.Idx → EReal) (ix1 j)) (m ((c : Thread nD τ).loc main_arg3))
        ((m ((c : Thread nD τ).loc main_arg4) : S1.Idx → EReal) (ix1 (0 : Fin 1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.ArrayValue

end
-- ==== Proof.RefRow.lean ====
/-
  The reference's result, read at an entry.

  The reference computes the same thing over the whole array at once: the input against the first weights plus the
  first bias copied to every row, sines and cosines side by side, those against the second weights plus the second
  bias, and the column of results copied to all 256 columns. Read one stage at a time, entry `(r, q)` of its result
  is the row map of row `r` of the input.
-/
import proofs.«122448_j65455301591497_1_alg».proof.Proof.Gen.ReferenceIdeal.Read
import proofs.«122448_j65455301591497_1_alg».proof.Proof.RowMap

noncomputable section

namespace Cert.ReferenceIdeal.RowValue

open Cert.ReferenceIdeal Cert.ReferenceIdeal.Gen Cert.ReferenceIdeal.Read Idealize.ShloMosaic Idealize.ShloMosaic.ValueIdx Cert.FourierRow

variable (x0 : (⟨S262144x128, .f32⟩ : BufTy).Contents (Elt Ideal)) (x1 : (⟨S128x7, .f32⟩ : BufTy).Contents (Elt Ideal))
  (x2 : (⟨S7, .f32⟩ : BufTy).Contents (Elt Ideal)) (x3 : (⟨S14x1, .f32⟩ : BufTy).Contents (Elt Ideal))
  (x4 : (⟨S1, .f32⟩ : BufTy).Contents (Elt Ideal))

/-- Hidden unit `j` of row `p`: the sum stage at `(p, j)`. -/
theorem hidden_apply (p : Fin 262144) (j : Fin 7) :
    val_main_v3 (F := Ideal) x0 x1 x2 (ix2 p j)
      = hid (fun k => x0 (ix2 p k)) (fun k j => x1 (ix2 k j)) (fun j => x2 (ix1 j)) j := by
  rw [val_main_v3_apply, val_main_v0_apply, val_main_v2_apply, val_main_v1_apply]
  unfold hid
  show _ + _ = _ + _
  congr 1
  · refine Finset.sum_congr rfl fun k _ => ?_
    congr 1
    · exact congrArg x0 (funext fun a => match a with | ⟨0, _⟩ => rfl | ⟨1, _⟩ => rfl)
    · exact congrArg x1 (funext fun a => match a with | ⟨0, _⟩ => rfl | ⟨1, _⟩ => rfl)
  · exact congrArg x2 (funext fun a => match a with | ⟨0, _⟩ => rfl)

/-- Feature `k` of row `p`: the side-by-side stage at `(p, k)`. -/
theorem feature_apply (p : Fin 262144) (k : Fin 14) :
    val_main_v6 (F := Ideal) x0 x1 x2 (ix2 p k)
      = feat (hid (fun k => x0 (ix2 p k)) (fun k j => x1 (ix2 k j)) (fun j => x2 (ix1 j))) k := by
  unfold val_main_v6 feat
  rw [concat_7_7_apply (M := 262144)]
  split
  · next hk =>
    rw [val_main_v4_apply, hidden_apply]
    rfl
  · next hk =>
    rw [val_main_v5_apply, hidden_apply]
    rfl

/-- THE REFERENCE'S RESULT is the row map on every row, copied across the columns. -/
theorem result_eq :
    val_main_v11 (F := Ideal) x0 x1 x2 x3 x4
      = target x0 x1 (fun j => x2 (ix1 j)) x3 (x4 (ix1 (0 : Fin 1))) := by
  funext i
  rw [val_main_v11_apply, val_main_v10_apply, val_main_v7_apply, val_main_v9_apply, val_main_v8_apply]
  unfold target rowOut
  show _ + _ = _ + _
  congr 1
  · refine Finset.sum_congr rfl fun k _ => ?_
    have el : lidx_main_v7 (idx_main_v11 i) k = ix2 (⟨(i 0).val, idx2_lt0 i⟩ : Fin 262144) k :=
      funext fun a => match a with | ⟨0, _⟩ => rfl | ⟨1, _⟩ => rfl
    have er : ridx_main_v7 (idx_main_v11 i) k = ix2 k (0 : Fin 1) :=
      funext fun a => match a with | ⟨0, _⟩ => rfl | ⟨1, _⟩ => rfl
    rw [el, er, feature_apply]
  · exact congrArg x4 (funext fun a => match a with | ⟨0, _⟩ => rfl)

end Cert.ReferenceIdeal.RowValue

end
-- ==== Proof.lean ====
/-
  A two-layer map with sine and cosine features, row by row.

  Both programs take a 262144 × 128 input, a 128 × 7 weight matrix with a bias of 7, and a 14 × 1 weight column with
  a bias of 1. Each row of the input gives 7 hidden units (the row against the first weights, plus the bias), 14
  features (the hidden units' sines, then their cosines), and one number (the features against the second weights,
  plus the second bias), which fills all 256 columns of that row of the result.

  The kernel does this 8192 rows at a time over 32 grid points, each product into a zero accumulator; the reference
  does it over the whole array. On the extended reals a product into zero and the host's product are both the plain
  sum over the contracted index, and the kernel's sine and cosine are the host's, so entry `(r, q)` of either
  result is the same expression in row `r` of the input: no law of arithmetic beyond that, and so no use of the
  inputs being finite. The blocks of the 32 points tile the output, row `r` in block `r / 8192`.

  The three programs' runs and unchanged arguments are the generated frames and the generated run of the reference;
  the idealization rewrote no operation, so there is nothing to preserve.
-/
import proofs.«122448_j65455301591497_1_alg».proof.Defs
import proofs.«122448_j65455301591497_1_alg».proof.Proof.Gen.Kernel
import proofs.«122448_j65455301591497_1_alg».proof.Proof.Gen.Kernel.Skeleton
import proofs.«122448_j65455301591497_1_alg».proof.Proof.Gen.Kernel.Launch
import proofs.«122448_j65455301591497_1_alg».proof.Proof.Gen.Kernel.Points
import proofs.«122448_j65455301591497_1_alg».proof.Proof.Gen.Kernel.Frame
import proofs.«122448_j65455301591497_1_alg».proof.Proof.Gen.KernelIdeal
import proofs.«122448_j65455301591497_1_alg».proof.Proof.Gen.KernelIdeal.Skeleton
import proofs.«122448_j65455301591497_1_alg».proof.Proof.Gen.KernelIdeal.Launch
import proofs.«122448_j65455301591497_1_alg».proof.Proof.Gen.KernelIdeal.Points
import proofs.«122448_j65455301591497_1_alg».proof.Proof.Gen.KernelIdeal.Frame
import proofs.«122448_j65455301591497_1_alg».proof.Proof.Gen.ReferenceIdeal
import proofs.«122448_j65455301591497_1_alg».proof.Proof.Gen.Pre_finite_inputs
import proofs.«122448_j65455301591497_1_alg».proof.Proof.Gen.KernelIdeal.Value
import proofs.«122448_j65455301591497_1_alg».proof.Proof.Gen.ReferenceIdeal.Run
import proofs.«122448_j65455301591497_1_alg».proof.Proof.Gen.ReferenceIdeal.Read
import proofs.«122448_j65455301591497_1_alg».proof.Proof.KernelArray
import proofs.«122448_j65455301591497_1_alg».proof.Proof.RefRow
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel on the extended reals. -/
theorem frame_kernel_ideal : Cert.frame_KernelIdeal := fun m ρ _ => Cert.KernelIdeal.Gen.frame m ρ

/-- So does the reference: its run, the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- From arguments that agree, the kernel's output array and the reference's result are both the row map applied
    to every row of the input and copied across the 256 columns. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RowValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
